-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x128 : Shape := ⟨4, ![16, 64, 64, 128]⟩
abbrev S_ : Shape := ⟨0, ![]⟩

class Facts : Prop where
  bcast_S_S16x64x64x128 : S_.BroadcastsInDim S16x64x64x128 (![] : Fin 0 → Fin S16x64x64x128.rank)
  reducesTo_S16x64x64x128_S_d0_1_2_3 : S16x64x64x128.ReducesTo [0, 1, 2, 3] S_
  h_S_ : 0 < S_.numel

variable [Facts]

def fn_part1 {F : FTy → Type} [FloatOps F] (main_v3 : IVec S_ 1) (main_v6 : IVec S16x64x64x128 32) (main_v15 : IVec S16x64x64x128 1) (main_v17 : IVec S16x64x64x128 32) : IVec S_ 1 :=
  let main_v18 : IVec S16x64x64x128 1 := cmpi .eq main_v17 main_v6
  let main_v19 : IVec S16x64x64x128 1 := andi main_v15 main_v18
  let main_c_4 : IVec S_ 1 := constantI S_ 1 1#1
  let main_v20 : IVec S_ 1 := (fun x v => Host.reduce IntOp.andi x v reducesTo_S16x64x64x128_S_d0_1_2_3 h_S_) main_v19 main_c_4
  let main_v21 : IVec S_ 1 := andi main_v3 main_v20
  main_v21

def fn {F : FTy → Type} [FloatOps F] (main_arg0 : FVec F S16x64x64x128 .f32) (main_arg1 : IVec S16x64x64x128 32) : IVec S_ 1 :=
  let main_v0 : FVec F S16x64x64x128 .f32 := Host.absf main_arg0
  let main_cst : FVec F S_ .f32 := constant S_ .f32 0x7F800000#32
  let main_v1 : FVec F S16x64x64x128 .f32 := broadcastInDim S16x64x64x128 ![] bcast_S_S16x64x64x128 main_cst
  let main_v2 : IVec S16x64x64x128 1 := cmpf .olt main_v0 main_v1
  let main_c : IVec S_ 1 := constantI S_ 1 1#1
  let main_v3 : IVec S_ 1 := (fun x v => Host.reduce IntOp.andi x v reducesTo_S16x64x64x128_S_d0_1_2_3 h_S_) main_v2 main_c
  let main_v4 : IVec S16x64x64x128 32 := iotaInDim S16x64x64x128 32 1
  let main_v5 : IVec S16x64x64x128 32 := iotaInDim S16x64x64x128 32 2
  let main_v6 : IVec S16x64x64x128 32 := iotaInDim S16x64x64x128 32 3
  let main_c_0 : IVec S_ 32 := constantI S_ 32 15#32
  let main_v7 : IVec S16x64x64x128 32 := broadcastInDim S16x64x64x128 ![] bcast_S_S16x64x64x128 main_c_0
  let main_v8 : IVec S16x64x64x128 32 := Host.shrsi main_arg1 main_v7
  let main_v9 : IVec S16x64x64x128 1 := cmpi .eq main_v8 main_v4
  let main_c_1 : IVec S_ 32 := constantI S_ 32 8#32
  let main_v10 : IVec S16x64x64x128 32 := broadcastInDim S16x64x64x128 ![] bcast_S_S16x64x64x128 main_c_1
  let main_v11 : IVec S16x64x64x128 32 := Host.shrsi main_arg1 main_v10
  let main_c_2 : IVec S_ 32 := constantI S_ 32 63#32
  let main_v12 : IVec S16x64x64x128 32 := broadcastInDim S16x64x64x128 ![] bcast_S_S16x64x64x128 main_c_2
  let main_v13 : IVec S16x64x64x128 32 := andi main_v11 main_v12
  let main_v14 : IVec S16x64x64x128 1 := cmpi .eq main_v13 main_v5
  let main_v15 : IVec S16x64x64x128 1 := andi main_v9 main_v14
  let main_c_3 : IVec S_ 32 := constantI S_ 32 127#32
  let main_v16 : IVec S16x64x64x128 32 := broadcastInDim S16x64x64x128 ![] bcast_S_S16x64x64x128 main_c_3
  let main_v17 : IVec S16x64x64x128 32 := andi main_arg1 main_v16
  fn_part1 (F := F) main_v3 main_v6 main_v15 main_v17
-- ==== Kernel.lean ====
abbrev S16x64x64x128 : Shape := ⟨4, ![16, 64, 64, 128]⟩
abbrev S16x128x128x128 : Shape := ⟨4, ![16, 128, 128, 128]⟩
abbrev S1x32x64x128 : Shape := ⟨4, ![1, 32, 64, 128]⟩
abbrev S1x64x128x128 : Shape := ⟨4, ![1, 64, 128, 128]⟩
abbrev S32x64x128 : Shape := ⟨3, ![32, 64, 128]⟩
abbrev S32x64x1x128 : Shape := ⟨4, ![32, 64, 1, 128]⟩
abbrev S32x64x2x128 : Shape := ⟨4, ![32, 64, 2, 128]⟩
abbrev S32x128x128 : Shape := ⟨3, ![32, 128, 128]⟩
abbrev S32x1x128x128 : Shape := ⟨4, ![32, 1, 128, 128]⟩
abbrev S32x2x128x128 : Shape := ⟨4, ![32, 2, 128, 128]⟩
abbrev S64x128x128 : Shape := ⟨3, ![64, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S16x128x128x128, .f32⟩
  | .local _ .vmem, ⟨0, _⟩ => ⟨S1x32x64x128, .f32⟩
  | .local _ .vmem, ⟨1, _⟩ => ⟨S1x32x64x128, .f32⟩
  | .local _ .vmem, ⟨2, _⟩ => ⟨S1x32x64x128, .i32⟩
  | .local _ .vmem, ⟨3, _⟩ => ⟨S1x32x64x128, .i32⟩
  | .local _ .vmem, ⟨4, _⟩ => ⟨S1x64x128x128, .f32⟩
  | .local _ .vmem, ⟨5, _⟩ => ⟨S1x64x128x128, .f32⟩
  | _, _ => ⟨S16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x64x128_S1x32x64x128_0_0_0_0 : ∀ a, (![0, 0, 0, 0] : Fin 4 → Nat) a + S1x32x64x128.size a ≤ S1x32x64x128.size a
  h_S1x32x64x128 : 0 < S1x32x64x128.numel
  shapeCasts_S1x32x64x128_S32x64x128 : S1x32x64x128.ShapeCasts S32x64x128
  shapeCasts_S32x64x128_S32x64x1x128 : S32x64x128.ShapeCasts S32x64x1x128
  concatenates_S32x64x1x128_S32x64x1x128_S32x64x2x128_d2 : Shape.Concatenates [S32x64x1x128, S32x64x1x128] S32x64x2x128 2
  shapeCasts_S32x64x2x128_S32x128x128 : S32x64x2x128.ShapeCasts S32x128x128
  shapeCasts_S32x128x128_S32x1x128x128 : S32x128x128.ShapeCasts S32x1x128x128
  concatenates_S32x1x128x128_S32x1x128x128_S32x2x128x128_d1 : Shape.Concatenates [S32x1x128x128, S32x1x128x128] S32x2x128x128 1
  shapeCasts_S32x2x128x128_S64x128x128 : S32x2x128x128.ShapeCasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x128.size a ≤ S16x64x64x128.size a
  hwx0_0 : ∀ i : grid0.Coords, EltTy.bits .f32 = 32 ∨ (Rect.block (s := S16x64x64x128) S1x32x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x128.size a ≤ S16x64x64x128.size a
  hwx0_1 : ∀ i : grid0.Coords, EltTy.bits .i32 = 32 ∨ (Rect.block (s := S16x64x64x128) S1x32x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S16x128x128x128.size a
  hwx0_2 : ∀ i : grid0.Coords, EltTy.bits .f32 = 32 ∨ (Rect.block (s := S16x128x128x128) S1x64x128x128.size (cc0_transform_2 i) (hinb0_2 i)).WholeWords (EltTy.packing .f32)

variable [Facts₀]

abbrev win0_0 : Pipeline.Window sig grid0 :=
  Pipeline.Window.ofSpec (Memref.whole main_arg0) S1x32x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x128 : Shape := ⟨4, ![16, 64, 64, 128]⟩
abbrev S16x524288 : Shape := ⟨2, ![16, 524288]⟩
abbrev S_ : Shape := ⟨0, ![]⟩
abbrev S16x2097152 : Shape := ⟨2, ![16, 2097152]⟩
abbrev S16 : Shape := ⟨1, ![16]⟩
abbrev S16x1 : Shape := ⟨2, ![16, 1]⟩
abbrev S16x524288x1 : Shape := ⟨3, ![16, 524288, 1]⟩
abbrev S16x524288x2 : Shape := ⟨3, ![16, 524288, 2]⟩
abbrev S16x128x128x128 : Shape := ⟨4, ![16, 128, 128, 128]⟩
abbrev S16x64x2x64x128 : Shape := ⟨5, ![16, 64, 2, 64, 128]⟩
abbrev S16x128x64x128 : Shape := ⟨4, ![16, 128, 64, 128]⟩
abbrev S16x128x64x2x128 : Shape := ⟨5, ![16, 128, 64, 2, 128]⟩

abbrev nBuf : Space → Nat
  | .hbm => 38
  | .vmem => 0
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S16x524288, .i32⟩
  | .hbm, ⟨3, _⟩ => ⟨S_, .f32⟩
  | .hbm, ⟨4, _⟩ => ⟨S16x524288, .f32⟩
  | .hbm, ⟨5, _⟩ => ⟨S_, .f32⟩
  | .hbm, ⟨6, _⟩ => ⟨S16x2097152, .f32⟩
  | .hbm, ⟨7, _⟩ => ⟨S16, .i32⟩
  | .hbm, ⟨8, _⟩ => ⟨S16x1, .i32⟩
  | .hbm, ⟨9, _⟩ => ⟨S_, .i32⟩
  | .hbm, ⟨10, _⟩ => ⟨S16x1, .i32⟩
  | .hbm, ⟨11, _⟩ => ⟨S16x1, .i1⟩
  | .hbm, ⟨12, _⟩ => ⟨S_, .i32⟩
  | .hbm, ⟨13, _⟩ => ⟨S16x1, .i32⟩
  | .hbm, ⟨14, _⟩ => ⟨S16x1, .i32⟩
  | .hbm, ⟨15, _⟩ => ⟨S16x1, .i32⟩
  | .hbm, ⟨16, _⟩ => ⟨S_, .i32⟩
  | .hbm, ⟨17, _⟩ => ⟨S16x524288, .i32⟩
  | .hbm, ⟨18, _⟩ => ⟨S16x524288, .i1⟩
  | .hbm, ⟨19, _⟩ => ⟨S_, .i32⟩
  | .hbm, ⟨20, _⟩ => ⟨S16x524288, .i32⟩
  | .hbm, ⟨21, _⟩ => ⟨S16x524288, .i32⟩
  | .hbm, ⟨22, _⟩ => ⟨S16x524288, .i32⟩
  | .hbm, ⟨23, _⟩ => ⟨S16x524288, .i32⟩
  | .hbm, ⟨24, _⟩ => ⟨S16x524288x1, .i32⟩
  | .hbm, ⟨25, _⟩ => ⟨S16x524288x1, .i32⟩
  | .hbm, ⟨26, _⟩ => ⟨S16x524288x2, .i32⟩
  | .hbm, ⟨27, _⟩ => ⟨S16x2097152, .f32⟩
  | .hbm, ⟨28, _⟩ => ⟨S_, .f32⟩
  | .hbm, ⟨29, _⟩ => ⟨S16x2097152, .f32⟩
  | .hbm, ⟨30, _⟩ => ⟨S16x2097152, .i1⟩
  | .hbm, ⟨31, _⟩ => ⟨S16x128x128x128, .i1⟩
  | .hbm, ⟨32, _⟩ => ⟨S16x64x2x64x128, .f32⟩
  | .hbm, ⟨33, _⟩ => ⟨S16x128x64x128, .f32⟩
  | .hbm, ⟨34, _⟩ => ⟨S16x128x64x2x128, .f32⟩
  | .hbm, ⟨35, _⟩ => ⟨S16x128x128x128, .f32⟩
  | .hbm, ⟨36, _⟩ => ⟨S16x128x128x128, .f32⟩
  | .hbm, ⟨37, _⟩ => ⟨S16x128x128x128, .f32⟩
  | _, _ => ⟨S16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S16x64x64x128_S16x524288 : S16x64x64x128.ShapeCasts S16x524288
  bcast_S_S16x524288 : S_.BroadcastsInDim S16x524288 (![] : Fin 0 → Fin S16x524288.rank)
  bcast_S_S16x2097152 : S_.BroadcastsInDim S16x2097152 (![] : Fin 0 → Fin S16x2097152.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x524288_0_1 : S16x1.BroadcastsInDim S16x524288 (![0, 1] : Fin 2 → Fin S16x524288.rank)
  bcast_S16x524288_S16x524288x1_0_1 : S16x524288.BroadcastsInDim S16x524288x1 (![0, 1] : Fin 2 → Fin S16x524288x1.rank)
  concatenates_S16x524288x1_S16x524288x1_S16x524288x2_d2 : Shape.Concatenates [S16x524288x1, S16x524288x1] S16x524288x2 2
  shapeCasts_S16x2097152_S16x128x128x128 : S16x2097152.ShapeCasts S16x128x128x128
  bcast_S16x64x64x128_S16x64x2x64x128_0_1_3_4 : S16x64x64x128.BroadcastsInDim S16x64x2x64x128 (![0, 1, 3, 4] : Fin 4 → Fin S16x64x2x64x128.rank)
  shapeCasts_S16x64x2x64x128_S16x128x64x128 : S16x64x2x64x128.ShapeCasts S16x128x64x128
  bcast_S16x128x64x128_S16x128x64x2x128_0_1_2_4 : S16x128x64x128.BroadcastsInDim S16x128x64x2x128 (![0, 1, 2, 4] : Fin 4 → Fin S16x128x64x2x128.rank)
  shapeCasts_S16x128x64x2x128_S16x128x128x128 : S16x128x64x2x128.ShapeCasts S16x128x128x128
  scatter_S16x2097152_S16x524288x2_S16x524288_n_01_01_2_wf : ScatterDims.WF S16x2097152 S16x524288x2 S16x524288 [] [0, 1] [0, 1] 2

variable [Facts₀]

def scatter_S16x2097152_S16x524288x2_S16x524288_n_01_01_2 : ScatterDims S16x2097152 S16x524288x2 S16x524288 where
  updateWindowDims := []
  insertedWindowDims := [0, 1]
  scatterDimsToOperandDims := [0, 1]
  indexVectorDim := 2
  wf := scatter_S16x2097152_S16x524288x2_S16x524288_n_01_01_2_wf

class Facts : Prop extends Facts₀ where

variable [Facts]
-- ==== Proof.Unpool.lean ====
import Idealize.ShloMosaic.PureOps.Ideal
import Idealize.ShloMosaic.Lib.ValueIdx

/-!
Max-unpooling by argmax indices, as one function of the two argument arrays.

`pooled` is [16, 64, 64, 128] and the output is [16, 128, 128, 128]: output position (b, y, x, c) lies in the 2x2 window of
pooled position (b, y / 2, x / 2, c).  An argmax index of that window, flattened over (128, 128, 128), is
`((2h + dy) * 128 + (2w + dx)) * 128 + c`, so its bit 14 is the row parity `dy` and its bit 7 the column parity `dx`; the
kernel packs the two as `2 * dy + dx`.  The output keeps the pooled value at the one position of each window whose parities
are the index's, and is zero at the other three.
-/

noncomputable section

namespace Cert.Unpool

open Idealize.ShloMosaic Idealize.ShloMosaic.ValueIdx

abbrev SIn : Shape := ⟨4, ![16, 64, 64, 128]⟩
abbrev SOut : Shape := ⟨4, ![16, 128, 128, 128]⟩

/-- Bit 14 of the word shifted up beside its bit 7, by the kernel's own operations (two arithmetic shifts by 7, two masks,
    a shift left, an or). -/
def corner (x : BitVec 32) : BitVec 32 :=
  IntOp.ori (IntOp.shli .vector (IntOp.andi (IntOp.shrsi .vector (IntOp.shrsi .vector x 7#32) 7#32) 1#32) 1#32)
    (IntOp.andi (IntOp.shrsi .vector x 7#32) 1#32)

/-- The word is an argmax index of the 2x2 window of (h, w) at channel c: every bit but 14 and 7 is fixed
    (bits 15 and up are h, bits 8 to 13 are w, bits 0 to 6 are c), spelt with the host's shifts and masks. -/
def InWindow (x : BitVec 32) (h w c : Nat) : Prop :=
  IntOp.shrsi .host x 15#32 = BitVec.ofNat 32 h ∧
  IntOp.andi (IntOp.shrsi .host x 8#32) 63#32 = BitVec.ofNat 32 w ∧
  IntOp.andi x 127#32 = BitVec.ofNat 32 c

/-- The pooled position whose window holds output position `i`. -/
def src (i : SOut.Idx) : SIn.Idx :=
  ix4 (i 0) ⟨(i 1).val / 2, by have h : (i 1).val < 128 := (i 1).isLt; show (i 1).val / 2 < 64; omega⟩
    ⟨(i 2).val / 2, by have h : (i 2).val < 128 := (i 2).isLt; show (i 2).val / 2 < 64; omega⟩ (i 3)

/-- The unpooled array: the pooled value where the output position's parities are the index's two free bits, zero
    elsewhere in the window. -/
def unpool (P : FVec Ideal SIn .f32) (I : IVec SIn 32) : FVec Ideal SOut .f32 := fun i =>
  if corner (I (src i)) = BitVec.ofNat 32 (2 * ((i 1).val % 2) + (i 2).val % 2) then P (src i)
  else Ideal.ofBits .f32 0x00000000#32

end Cert.Unpool

end
-- ==== Proof.KernelValue.lean ====
import proofs.«408017_j26749056319643_3_alg».proof.Proof.Gen.KernelIdeal.Value
import proofs.«408017_j26749056319643_3_alg».proof.Proof.Unpool

/-!
The kernel's output array as one function of its two argument arrays.

The grid is 16 x 2: point (b, s) loads the [1,32,64,128] blocks of batch b and row band s of the pooled array and of the
argmax array, and stores the [1,64,128,128] block of batch b and row band s of the output. The body decodes each argmax
word to the packed parities 2 dy + dx of its position in the 2x2 window, makes four masked copies of the pooled block (the
value where the parities are k, zero elsewhere, k = 0, 1, 2, 3), and interleaves them: copies 0 and 1, and copies 2 and 3,
along the columns, then the two results along the rows. So block position (r, q) reads copy 2 (r % 2) + q % 2 at
(r / 2, q / 2), which is `Cert.Unpool.unpool` at the output position the block position stands for; the blocks tile the
output, so the array after the run is `Cert.Unpool.unpool` of the arguments.
-/

noncomputable section

namespace Cert.KernelIdeal.Unpooled

open Cert.KernelIdeal Cert.KernelIdeal.Gen Idealize.ShloMosaic Idealize.ShloMosaic.TcCoe Idealize.SL.Sem
open Idealize.ShloMosaic.ValueIdx

/-! ## The body's result at a position of its block -/

/-- Two [32,64,128] arrays interleaved along the columns: each gets a unit axis before the channels, the two are
    concatenated on it and the pair of axes (64, 2) is flattened to 128, so column q reads the first array at q / 2 when q
    is even and the second when q is odd. -/
theorem cols_apply {α : Type} (u v : S32x64x128.Idx → α) (h : Fin 32) (q : Fin 128) (c : Fin 128) :
    shapeCast S32x128x128 (concatenate S32x64x2x128 2 [⟨S32x64x1x128, shapeCast S32x64x1x128 u shapeCasts_S32x64x128_S32x64x1x128⟩, ⟨S32x64x1x128, shapeCast S32x64x1x128 v shapeCasts_S32x64x128_S32x64x1x128⟩] concatenates_S32x64x1x128_S32x64x1x128_S32x64x2x128_d2) shapeCasts_S32x64x2x128_S32x128x128 (ix3 h q c)
      = if q.val % 2 = 0 then u (ix3 h (⟨q.val / 2, by have := q.isLt; omega⟩ : Fin 64) c) else v (ix3 h (⟨q.val / 2, by have := q.isLt; omega⟩ : Fin 64) c) := by
  have hq : q.val < 128 := q.isLt
  have hh : h.val < 32 := h.isLt
  have hc : c.val < 128 := c.isLt
  refine (shapeCast_apply _ _ (ix3 h q c) (ix4 h (⟨q.val / 2, by omega⟩ : Fin 64) (⟨q.val % 2, by omega⟩ : Fin 2) c) (by
    rw [Shape.rowMajor_val_four, Shape.rowMajor_val_three]
    show ((h.val * 64 + q.val / 2) * 2 + q.val % 2) * 128 + c.val = (h.val * 128 + q.val) * 128 + c.val
    omega)).trans ?_
  by_cases h0 : q.val % 2 = 0
  · rw [if_pos h0]
    refine (concatenate_pair_apply_left (t := S32x64x2x128) (s₁ := S32x64x1x128) (s₂ := S32x64x1x128) (2 : Fin 4) _ _ _ (ix4 h (⟨q.val / 2, by omega⟩ : Fin 64) (⟨q.val % 2, by omega⟩ : Fin 2) c) rfl (ix4 h (⟨q.val / 2, by omega⟩ : Fin 64) (0 : Fin 1) c) (fun b => by
      match b with
      | ⟨0, _⟩ => rfl
      | ⟨1, _⟩ => rfl
      | ⟨2, _⟩ => exact h0.symm
      | ⟨3, _⟩ => rfl)).trans ?_
    exact shapeCast_apply _ _ _ (ix3 h (⟨q.val / 2, by omega⟩ : Fin 64) c) (by
      rw [Shape.rowMajor_val_four, Shape.rowMajor_val_three]
      show (h.val * 64 + q.val / 2) * 128 + c.val = ((h.val * 64 + q.val / 2) * 1 + 0) * 128 + c.val
      omega)
  · rw [if_neg h0]
    refine (concatenate_pair_apply_right (t := S32x64x2x128) (s₁ := S32x64x1x128) (s₂ := S32x64x1x128) (2 : Fin 4) _ _ _ (ix4 h (⟨q.val / 2, by omega⟩ : Fin 64) (⟨q.val % 2, by omega⟩ : Fin 2) c) rfl rfl (ix4 h (⟨q.val / 2, by omega⟩ : Fin 64) (0 : Fin 1) c) (fun b hb => by
      match b with
      | ⟨0, _⟩ => rfl
      | ⟨1, _⟩ => rfl
      | ⟨2, _⟩ => exact absurd rfl hb
      | ⟨3, _⟩ => rfl) (by show 0 + 1 = q.val % 2; omega)).trans ?_
    exact shapeCast_apply _ _ _ (ix3 h (⟨q.val / 2, by omega⟩ : Fin 64) c) (by
      rw [Shape.rowMajor_val_four, Shape.rowMajor_val_three]
      show (h.val * 64 + q.val / 2) * 128 + c.val = ((h.val * 64 + q.val / 2) * 1 + 0) * 128 + c.val
      omega)

/-- Two [32,128,128] arrays interleaved along the rows: each gets a unit axis after the leading one, the two are
    concatenated on it, the pair of axes (32, 2) is flattened to 64 and a leading unit axis is added, so row r reads the
    first array at r / 2 when r is even and the second when r is odd. -/
theorem rows_apply {α : Type} (u v : S32x128x128.Idx → α) (r : Fin 64) (q : Fin 128) (c : Fin 128) :
    shapeCast S1x64x128x128 (shapeCast S64x128x128 (concatenate S32x2x128x128 1 [⟨S32x1x128x128, shapeCast S32x1x128x128 u shapeCasts_S32x128x128_S32x1x128x128⟩, ⟨S32x1x128x128, shapeCast S32x1x128x128 v shapeCasts_S32x128x128_S32x1x128x128⟩] concatenates_S32x1x128x128_S32x1x128x128_S32x2x128x128_d1) shapeCasts_S32x2x128x128_S64x128x128) shapeCasts_S64x128x128_S1x64x128x128 (ix4 (0 : Fin 1) r q c)
      = if r.val % 2 = 0 then u (ix3 (⟨r.val / 2, by have := r.isLt; omega⟩ : Fin 32) q c) else v (ix3 (⟨r.val / 2, by have := r.isLt; omega⟩ : Fin 32) q c) := by
  have hr : r.val < 64 := r.isLt
  have hq : q.val < 128 := q.isLt
  have hc : c.val < 128 := c.isLt
  refine (shapeCast_apply _ _ (ix4 (0 : Fin 1) r q c) (ix3 r q c) (by
    rw [Shape.rowMajor_val_four, Shape.rowMajor_val_three]
    show (r.val * 128 + q.val) * 128 + c.val = ((0 * 64 + r.val) * 128 + q.val) * 128 + c.val
    omega)).trans ?_
  refine (shapeCast_apply _ _ (ix3 r q c) (ix4 (⟨r.val / 2, by omega⟩ : Fin 32) (⟨r.val % 2, by omega⟩ : Fin 2) q c) (by
    rw [Shape.rowMajor_val_four, Shape.rowMajor_val_three]
    show ((r.val / 2 * 2 + r.val % 2) * 128 + q.val) * 128 + c.val = (r.val * 128 + q.val) * 128 + c.val
    omega)).trans ?_
  by_cases h0 : r.val % 2 = 0
  · rw [if_pos h0]
    refine (concatenate_pair_apply_left (t := S32x2x128x128) (s₁ := S32x1x128x128) (s₂ := S32x1x128x128) (1 : Fin 4) _ _ _ (ix4 (⟨r.val / 2, by omega⟩ : Fin 32) (⟨r.val % 2, by omega⟩ : Fin 2) q c) rfl (ix4 (⟨r.val / 2, by omega⟩ : Fin 32) (0 : Fin 1) q c) (fun b => by
      match b with
      | ⟨0, _⟩ => rfl
      | ⟨1, _⟩ => exact h0.symm
      | ⟨2, _⟩ => rfl
      | ⟨3, _⟩ => rfl)).trans ?_
    exact shapeCast_apply _ _ _ (ix3 (⟨r.val / 2, by omega⟩ : Fin 32) q c) (by
      rw [Shape.rowMajor_val_four, Shape.rowMajor_val_three]
      show (r.val / 2 * 128 + q.val) * 128 + c.val = ((r.val / 2 * 1 + 0) * 128 + q.val) * 128 + c.val
      omega)
  · rw [if_neg h0]
    refine (concatenate_pair_apply_right (t := S32x2x128x128) (s₁ := S32x1x128x128) (s₂ := S32x1x128x128) (1 : Fin 4) _ _ _ (ix4 (⟨r.val / 2, by omega⟩ : Fin 32) (⟨r.val % 2, by omega⟩ : Fin 2) q c) rfl rfl (ix4 (⟨r.val / 2, by omega⟩ : Fin 32) (0 : Fin 1) q c) (fun b hb => by
      match b with
      | ⟨0, _⟩ => rfl
      | ⟨1, _⟩ => exact absurd rfl hb
      | ⟨2, _⟩ => rfl
      | ⟨3, _⟩ => rfl) (by show 0 + 1 = r.val % 2; omega)).trans ?_
    exact shapeCast_apply _ _ _ (ix3 (⟨r.val / 2, by omega⟩ : Fin 32) q c) (by
      rw [Shape.rowMajor_val_four, Shape.rowMajor_val_three]
      show (r.val / 2 * 128 + q.val) * 128 + c.val = ((r.val / 2 * 1 + 0) * 128 + q.val) * 128 + c.val
      omega)

/-- A block with its leading unit axis dropped reads the block at the same position. -/
theorem drop_apply {α : Type} (x : S1x32x64x128.Idx → α) (h : Fin 32) (w : Fin 64) (c : Fin 128) :
    shapeCast S32x64x128 x shapeCasts_S1x32x64x128_S32x64x128 (ix3 h w c) = x (ix4 (0 : Fin 1) h w c) :=
  shapeCast_apply _ _ (ix3 h w c) (ix4 (0 : Fin 1) h w c) (by
    rw [Shape.rowMajor_val_four, Shape.rowMajor_val_three]
    show ((0 * 32 + h.val) * 64 + w.val) * 128 + c.val = (h.val * 64 + w.val) * 128 + c.val
    omega)

/-- A select on "these two words are equal" is the `if` on their equality. -/
theorem select_cmpi_eq {α : Type} (a k : BitVec 32) (A B : α) :
    Scalar.select (IntOp.cmpi .eq a k) A B = if a = k then A else B := by
  unfold Scalar.select IntOp.cmpi
  by_cases e : a = k
  · rw [if_pos e]; subst e; simp
  · rw [if_neg e]
    have hb : (a == k) = false := beq_eq_false_iff_ne.mpr e
    show (if BitVec.ofBool (a == k) = 1 then A else B) = B
    rw [hb]
    exact if_neg (by decide)

/-- One of the body's four masked copies of the pooled block: where the packed parities of the argmax word are `k` it
    keeps the pooled value, elsewhere it is zero. -/
theorem masked_apply (x0 : Vec Ideal S1x32x64x128 .f32) (x1 : Vec Ideal S1x32x64x128 .i32) (k : BitVec 32) (h : Fin 32) (w : Fin 64) (c : Fin 128) :
    select (cmpi .eq (k0_pay3 (F := Ideal) x1) (broadcast S32x64x128 k)) (k0_pay2 x0) (broadcast S32x64x128 (Scalar.ofBits (F := Ideal) .f32 0x00000000#32)) (ix3 h w c)
      = if Cert.Unpool.corner (x1 (ix4 (0 : Fin 1) h w c)) = k then x0 (ix4 (0 : Fin 1) h w c) else Ideal.ofBits .f32 0x00000000#32 := by
  have e3 : k0_pay3 (F := Ideal) x1 (ix3 h w c) = Cert.Unpool.corner (x1 (ix4 (0 : Fin 1) h w c)) := by
    have := drop_apply x1 h w c
    show Cert.Unpool.corner (shapeCast S32x64x128 x1 shapeCasts_S1x32x64x128_S32x64x128 (ix3 h w c)) = _
    rw [this]
  have e2 : k0_pay2 x0 (ix3 h w c) = x0 (ix4 (0 : Fin 1) h w c) := drop_apply x0 h w c
  show Scalar.select (IntOp.cmpi .eq (k0_pay3 (F := Ideal) x1 (ix3 h w c)) k) (k0_pay2 x0 (ix3 h w c)) (Ideal.ofBits .f32 0x00000000#32) = _
  rw [e3, e2, select_cmpi_eq]

/-- THE BODY'S RESULT AT A POSITION of its [1,64,128,128] block: row r and column q lie in the 2x2 window of the pooled
    position (r / 2, q / 2); the four masked copies (parities 0, 1, 2, 3) are interleaved first along the columns, then
    along the rows, so the copy read there is the one whose parities are 2 (r % 2) + q % 2. -/
theorem payload_apply (x0 : Vec Ideal S1x32x64x128 .f32) (x1 : Vec Ideal S1x32x64x128 .i32) (r : Fin 64) (q : Fin 128) (c : Fin 128) :
    k0_pay1 (k0_pay4 x0 x1) (k0_pay5 x0 x1) (k0_pay6 x0 x1) (ix4 (0 : Fin 1) r q c)
      = if Cert.Unpool.corner (x1 (ix4 (0 : Fin 1) (⟨r.val / 2, by have := r.isLt; omega⟩ : Fin 32) (⟨q.val / 2, by have := q.isLt; omega⟩ : Fin 64) c)) = BitVec.ofNat 32 (2 * (r.val % 2) + q.val % 2)
        then x0 (ix4 (0 : Fin 1) (⟨r.val / 2, by have := r.isLt; omega⟩ : Fin 32) (⟨q.val / 2, by have := q.isLt; omega⟩ : Fin 64) c)
        else Ideal.ofBits .f32 0x00000000#32 := by
  have hr : r.val < 64 := r.isLt
  have hq : q.val < 128 := q.isLt
  unfold k0_pay1 k0_pay4 k0_pay5 k0_pay6
  refine (rows_apply _ _ r q c).trans ?_
  by_cases hr0 : r.val % 2 = 0
  · rw [if_pos hr0]
    refine (cols_apply _ _ (⟨r.val / 2, by omega⟩ : Fin 32) q c).trans ?_
    by_cases hq0 : q.val % 2 = 0
    · rw [if_pos hq0]
      have e : BitVec.ofNat 32 (2 * (r.val % 2) + q.val % 2) = 0#32 := by rw [hr0, hq0]
      rw [e]
      exact masked_apply x0 x1 0#32 _ _ c
    · rw [if_neg hq0]
      have e : BitVec.ofNat 32 (2 * (r.val % 2) + q.val % 2) = 1#32 := by
        have : q.val % 2 = 1 := by omega
        rw [hr0, this]
      rw [e]
      exact masked_apply x0 x1 1#32 _ _ c
  · rw [if_neg hr0]
    refine (cols_apply _ _ (⟨r.val / 2, by omega⟩ : Fin 32) q c).trans ?_
    have hr1 : r.val % 2 = 1 := by omega
    by_cases hq0 : q.val % 2 = 0
    · rw [if_pos hq0]
      have e : BitVec.ofNat 32 (2 * (r.val % 2) + q.val % 2) = 2#32 := by rw [hr1, hq0]
      rw [e]
      exact masked_apply x0 x1 2#32 _ _ c
    · rw [if_neg hq0]
      have e : BitVec.ofNat 32 (2 * (r.val % 2) + q.val % 2) = 3#32 := by
        have : q.val % 2 = 1 := by omega
        rw [hr1, this]
      rw [e]
      exact masked_apply x0 x1 3#32 _ _ c

/-- The body's result on a block against the unpooled array: when the two loaded blocks are the (batch b, row band s)
    blocks of the pooled array P and of the argmax array I, the body's result at block position j is the unpooled array at
    the position i of the output that j stands for (batch b, row 64 s + j 1). -/
theorem block_apply (x0 : Vec Ideal S1x32x64x128 .f32) (x1 : Vec Ideal S1x32x64x128 .i32)
    (P : FVec Ideal Cert.Unpool.SIn .f32) (I : IVec Cert.Unpool.SIn 32) (b s : Nat)
    (h0 : ∀ (h : Fin 32) (w : Fin 64) (c : Fin 128) (i' : Cert.Unpool.SIn.Idx), (i' 0).val = b → (i' 1).val = s * 32 + h.val →
      (i' 2).val = w.val → (i' 3).val = c.val → x0 (ix4 (0 : Fin 1) h w c) = P i')
    (h1 : ∀ (h : Fin 32) (w : Fin 64) (c : Fin 128) (i' : Cert.Unpool.SIn.Idx), (i' 0).val = b → (i' 1).val = s * 32 + h.val →
      (i' 2).val = w.val → (i' 3).val = c.val → x1 (ix4 (0 : Fin 1) h w c) = I i')
    (j : S1x64x128x128.Idx) (i : Cert.Unpool.SOut.Idx) (e0 : (i 0).val = b) (e1 : (i 1).val = s * 64 + (j 1).val)
    (e2 : (i 2).val = (j 2).val) (e3 : (i 3).val = (j 3).val) :
    k0_pay1 (k0_pay4 x0 x1) (k0_pay5 x0 x1) (k0_pay6 x0 x1) j = Cert.Unpool.unpool P I i := by
  have hj1 : (j 1).val < 64 := (j 1).isLt
  have hj2 : (j 2).val < 128 := (j 2).isLt
  have ej : j = ix4 (0 : Fin 1) (j 1) (j 2) (j 3) := by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl
  refine (congrArg _ ej).trans ((payload_apply x0 x1 (j 1) (j 2) (j 3)).trans ?_)
  have s0 : ((Cert.Unpool.src i) 0).val = b := e0
  have s1 : ((Cert.Unpool.src i) 1).val = s * 32 + (j 1).val / 2 := by show (i 1).val / 2 = _; omega
  have s2 : ((Cert.Unpool.src i) 2).val = (j 2).val / 2 := by show (i 2).val / 2 = _; omega
  have s3 : ((Cert.Unpool.src i) 3).val = (j 3).val := e3
  have p1 : (i 1).val % 2 = (j 1).val % 2 := by omega
  unfold Cert.Unpool.unpool
  rw [h0 _ _ _ (Cert.Unpool.src i) s0 s1 s2 s3, h1 _ _ _ (Cert.Unpool.src i) s0 s1 s2 s3, p1, e2]

/-! ## From the blocks to the array -/

/-- The whole-buffer rectangle's offsets are all zero. -/
theorem zero_offsets : (![0, 0, 0, 0] : Fin 4 → Nat) = fun _ => 0 := funext fun a => by fin_cases a <;> rfl

/-- The windows' block indices over the grid: the two inputs' blocks move with the output's on the batch and the row-band
    axes and stay at 0 on the other two. -/
theorem block_indices : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) ≤ 15 ∧ win0_2.index t (1 : Fin 4) ≤ 1
    ∧ win0_2.index t (2 : Fin 4) = 0 ∧ win0_2.index t (3 : Fin 4) = 0 :=
  (by decide +kernel : ∀ t : Fin grid0.N, _)

/-- Every (batch, row band) pair is some grid point's output block. -/
theorem block_onto : ∀ (q0 : Fin 16) (q1 : Fin 2), ∃ t : Fin cfg0.N, win0_2.index t = ![q0.val, q1.val, 0, 0] :=
  (by decide +kernel : ∀ (q0 : Fin 16) (q1 : Fin 2), ∃ t : Fin grid0.N, win0_2.index t = ![q0.val, q1.val, 0, 0])

variable (m : (ℓ : Loc nD τ sig) → Buf (Elt Ideal) ℓ)

/-- WHAT POINT `t` WRITES BACK is block `t` of the unpooled array of the two arguments: the two loaded blocks are the blocks
    of the arguments at the output block's batch and row band, and a block position stands for the output position at
    block index times block size plus the position. -/
theorem flushed_eq (c : Dev nD) (t : Fin cfg0.N) :
    (dats m 0 c).flushed 2 t = ((cfg0.win 2).blk t).view.read (Elt Ideal) (Cert.Unpool.unpool (V m c main_arg0) (V m c main_arg1)) := by
  rw [Value.flushed2]
  unfold out0_2
  rw [View.canon_unit_zero zero_offsets]
  simp only [View.ld_unit_zero (S := S1x32x64x128) zero_offsets]
  funext j
  obtain ⟨a0, a1, a2, a3, b0, b1, b2, b3, l0, l1, z2, z3⟩ := block_indices t
  have hj0 : (j 0).val < 1 := (j 0).isLt
  show k0_pay1 (k0_pay4 (iblk m c 0 t) (iblk m c 1 t)) (k0_pay5 (iblk m c 0 t) (iblk m c 1 t)) (k0_pay6 (iblk m c 0 t) (iblk m c 1 t)) j
    = Cert.Unpool.unpool (V m c main_arg0) (V m c main_arg1) (((cfg0.win 2).blk t).view.emb j)
  exact block_apply (iblk m c 0 t) (iblk m c 1 t) (V m c main_arg0) (V m c main_arg1) (win0_2.index t (0 : Fin 4)) (win0_2.index t (1 : Fin 4))
    (fun h w cc i' e0 e1 e2 e3 => by
      show V m c main_arg0 (((cfg0.win 0).blk t).view.emb (ix4 (0 : Fin 1) h w cc)) = V m c main_arg0 i'
      refine congrArg _ (funext fun a => Fin.ext ?_)
      match a with
      | ⟨0, _⟩ => show win0_0.index t (0 : Fin 4) * 1 + 1 * 0 = (i' 0).val; omega
      | ⟨1, _⟩ => show win0_0.index t (1 : Fin 4) * 32 + 1 * h.val = (i' 1).val; omega
      | ⟨2, _⟩ => show win0_0.index t (2 : Fin 4) * 64 + 1 * w.val = (i' 2).val; omega
      | ⟨3, _⟩ => show win0_0.index t (3 : Fin 4) * 128 + 1 * cc.val = (i' 3).val; omega)
    (fun h w cc i' e0 e1 e2 e3 => by
      show V m c main_arg1 (((cfg0.win 1).blk t).view.emb (ix4 (0 : Fin 1) h w cc)) = V m c main_arg1 i'
      refine congrArg _ (funext fun a => Fin.ext ?_)
      match a with
      | ⟨0, _⟩ => show win0_1.index t (0 : Fin 4) * 1 + 1 * 0 = (i' 0).val; omega
      | ⟨1, _⟩ => show win0_1.index t (1 : Fin 4) * 32 + 1 * h.val = (i' 1).val; omega
      | ⟨2, _⟩ => show win0_1.index t (2 : Fin 4) * 64 + 1 * w.val = (i' 2).val; omega
      | ⟨3, _⟩ => show win0_1.index t (3 : Fin 4) * 128 + 1 * cc.val = (i' 3).val; omega)
    j (((cfg0.win 2).blk t).view.emb j)
    (by show win0_2.index t (0 : Fin 4) * 1 + 1 * (j 0).val = win0_2.index t (0 : Fin 4); omega)
    (by show win0_2.index t (1 : Fin 4) * 64 + 1 * (j 1).val = win0_2.index t (1 : Fin 4) * 64 + (j 1).val; omega)
    (by show win0_2.index t (2 : Fin 4) * 128 + 1 * (j 2).val = (j 2).val; omega)
    (by show win0_2.index t (3 : Fin 4) * 128 + 1 * (j 3).val = (j 3).val; omega)

/-- An index of the output array is in point `t`'s block iff each coordinate is in the block's range on its axis. -/
theorem mem_block (t : Fin cfg0.N) (i : S16x128x128x128.Idx) :
    i ∈ ((cfg0.win 2).blk t).view.set ↔ ∀ a : Fin 4, win0_2.index t a * S1x64x128x128.size a ≤ (i a).val ∧ (i a).val < win0_2.index t a * S1x64x128x128.size a + S1x64x128x128.size a := by
  show i ∈ ((View.whole main_v0).slice (win0_2.rect t)).set ↔ _
  rw [View.set_slice_whole, Rect.mem_set_unit]
  exact Iff.rfl

/-- The output's blocks tile the array: position (b, y, x, ch) is in the block of batch b and row band y / 64. -/
theorem covered (i : S16x128x128x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hi2 : (i 2).val < 128 := (i 2).isLt
  have hi3 : (i 3).val < 128 := (i 3).isLt
  obtain ⟨t, ht⟩ := block_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE OUTPUT ARRAY after the run is the unpooled array of the two arguments. -/
theorem final (c : Dev nD) : (dats m 0 c).arrAt 2 cfg0.N
    = Cert.Unpool.unpool (m ((c : Thread nD τ).loc main_arg0)) (m ((c : Thread nD τ).loc main_arg1)) :=
  (dats m 0 c).arrAt_eq_of_cover 2 (Cert.Unpool.unpool (V m c main_arg0) (V m c main_arg1)) (fun t _ => flushed_eq m c t) covered

/-- The kernel's run ends with its output at the unpooled array of its two arguments, which it leaves as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.Unpool.unpool (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Unpooled

end
-- ==== Proof.PreWindow.lean ====
import proofs.«408017_j26749056319643_3_alg».proof.Pre_finite_inputs
import proofs.«408017_j26749056319643_3_alg».proof.Proof.Unpool
import Idealize.ShloMosaic.Lib.ReduceAll
import Idealize.ShloMosaic.Lib.StableHlo.Predicate

/-!
The precondition on the two argument arrays, read element by element.

The predicate is the conjunction of two "for all positions" statements. The second says that at every position
(b, h, w, c) of the index array the word x satisfies x >> 15 = h, (x >> 8) & 63 = w and x & 127 = c: all bits of the word
except bits 14 and 7 are fixed by the position. That is exactly membership in the 2x2 window of (h, w) at channel c.
-/

namespace Cert.Unpool

open Idealize.ShloMosaic Idealize.ShloMosaic.ValueIdx

/-- The predicate holding (for arrays over any float carrier) puts every index word in the window of its position. -/
theorem inWindow_of_pre_gen [Cert.Pre_finite_inputs.Facts] {F : FTy → Type} [FloatOps F] (P : FVec F SIn .f32)
    (I : IVec SIn 32) (h : Cert.Pre_finite_inputs.fn (F := F) P I = fun _ => 1#1) :
    ∀ j : SIn.Idx, InWindow (I j) (j 1).val (j 2).val (j 3).val := by
  intro j
  have h0 := congrFun h ValueIdx.ix0
  dsimp only [Cert.Pre_finite_inputs.fn, Cert.Pre_finite_inputs.fn_part1] at h0
  -- the outer conjunction of the two "for all" results
  have h1 := (IntOp.andi_eq_one.1 h0).2
  -- the second "for all", at position j (the rank-0 result has one index)
  haveI : Subsingleton Cert.Pre_finite_inputs.S_.Idx := ⟨fun a b => funext fun d => d.elim0⟩
  have h2 := Host.reduce_andi_all _ _ _ _ _ h1 j
  -- the three equalities at position j
  obtain ⟨hAB, hC⟩ := IntOp.andi_eq_one.1 h2
  obtain ⟨hA, hB⟩ := IntOp.andi_eq_one.1 hAB
  have eA := StableHlo.Predicate.cmpi_eq_iff.1 hA
  have eB := StableHlo.Predicate.cmpi_eq_iff.1 hB
  have eC := StableHlo.Predicate.cmpi_eq_iff.1 hC
  exact ⟨eA, eB, eC⟩

theorem inWindow_of_pre [Cert.Pre_finite_inputs.Facts] (P : FVec Ideal SIn .f32) (I : IVec SIn 32)
    (h : Cert.Pre_finite_inputs.fn (F := Ideal) P I = fun _ => 1#1) :
    ∀ j : SIn.Idx, InWindow (I j) (j 1).val (j 2).val (j 3).val :=
  inWindow_of_pre_gen P I h

end Cert.Unpool
-- ==== Proof.Scatter.lean ====
import proofs.«408017_j26749056319643_3_alg».proof.ReferenceIdeal
import Idealize.ShloMosaic.Lib.ValueIdx

/-!
The reference's scatter, read one update at a time: the operand is [16, 2097152], the scatter indices [16, 524288, 2] and
the updates [16, 524288]; both operand axes are named by the index vector and none is a window axis, so update (b, k) lands
on the element whose two coordinates are the two components of scatter index (b, k), read signed, and nowhere when either
is outside the operand.
-/

noncomputable section

namespace Cert.Unpool

open Idealize.ShloMosaic Idealize.ShloMosaic.ValueIdx Cert.ReferenceIdeal

variable [Cert.ReferenceIdeal.Facts]

/-- The reference's scatter dimension numbers. -/
abbrev sd := scatter_S16x2097152_S16x524288x2_S16x524288_n_01_01_2

theorem sd_sKept : sd.sKept = [] := rfl
theorem sd_sdto : sd.scatterDimsToOperandDims = [0, 1] := rfl

theorem sd_window (j : S16x524288.Idx) (a : Fin 2) : sd.window j a = 0 := by
  unfold ScatterDims.window
  rw [dif_neg]
  rw [sd_sKept]; exact List.not_mem_nil

theorem sd_siIdx0 (j : S16x524288.Idx) :
    sd.siIdx j ⟨0, (Nat.zero_lt_two : 0 < 2)⟩ = (ix3 (j 0) (j 1) (0 : Fin 2) : S16x524288x2.Idx) := by
  funext b
  match b with
  | ⟨0, _⟩ => rfl
  | ⟨1, _⟩ => rfl
  | ⟨2, _⟩ => rfl

theorem sd_siIdx1 (j : S16x524288.Idx) :
    sd.siIdx j ⟨1, (Nat.one_lt_two : 1 < 2)⟩ = (ix3 (j 0) (j 1) (1 : Fin 2) : S16x524288x2.Idx) := by
  funext b
  match b with
  | ⟨0, _⟩ => rfl
  | ⟨1, _⟩ => rfl
  | ⟨2, _⟩ => rfl

theorem sd_start0 (j : S16x524288.Idx) (idx : IVec S16x524288x2 32) :
    sd.start j idx 0 = (idx (ix3 (j 0) (j 1) (0 : Fin 2))).toInt := by
  unfold ScatterDims.start
  rw [dif_pos (by rw [sd_sdto]; decide)]
  exact congrArg (fun q => (idx q).toInt) (sd_siIdx0 j)

theorem sd_start1 (j : S16x524288.Idx) (idx : IVec S16x524288x2 32) :
    sd.start j idx 1 = (idx (ix3 (j 0) (j 1) (1 : Fin 2))).toInt := by
  unfold ScatterDims.start
  rw [dif_pos (by rw [sd_sdto]; decide)]
  exact congrArg (fun q => (idx q).toInt) (sd_siIdx1 j)

/-- Update `j` lands on element `i` exactly when its two index components, read signed, are `i`'s two coordinates:
    both operand axes are inserted, so the window adds nothing, and an index outside the operand lands nowhere. -/
theorem sd_resultIdx?_iff (j : S16x524288.Idx) (idx : IVec S16x524288x2 32) (i : S16x2097152.Idx) :
    sd.resultIdx? j idx = some i ↔
      (idx (ix3 (j 0) (j 1) (0 : Fin 2))).toInt = ((i 0).val : Int) ∧ (idx (ix3 (j 0) (j 1) (1 : Fin 2))).toInt = ((i 1).val : Int) := by
  have h0 : (i 0).val < 16 := (i 0).isLt
  have h1 : (i 1).val < 2097152 := (i 1).isLt
  unfold ScatterDims.resultIdx?
  split
  · rename_i h
    rw [Option.some.injEq]
    constructor
    · intro e
      have e0 := congrArg Fin.val (congrFun e 0)
      have e1 := congrArg Fin.val (congrFun e 1)
      have b0 := h 0
      have b1 := h 1
      simp only [sd_start0, sd_start1, sd_window] at e0 e1 b0 b1
      constructor <;> omega
    · rintro ⟨e0, e1⟩
      funext a
      apply Fin.ext
      match a with
      | ⟨0, _⟩ => show (sd.start j idx 0 + (sd.window j 0 : Int)).toNat = (i 0).val; rw [sd_start0, sd_window, e0]; simp
      | ⟨1, _⟩ => show (sd.start j idx 1 + (sd.window j 1 : Int)).toNat = (i 1).val; rw [sd_start1, sd_window, e1]; simp
  · rename_i h
    constructor
    · intro e; cases e
    · rintro ⟨e0, e1⟩
      exfalso; apply h
      intro a
      match a with
      | ⟨0, _⟩ => show 0 ≤ sd.start j idx 0 + (sd.window j 0 : Int) ∧ sd.start j idx 0 + (sd.window j 0 : Int) < 16; rw [sd_start0, sd_window, e0]; omega
      | ⟨1, _⟩ => show 0 ≤ sd.start j idx 1 + (sd.window j 1 : Int) ∧ sd.start j idx 1 + (sd.window j 1 : Int) < 2097152; rw [sd_start1, sd_window, e1]; omega

end Cert.Unpool
end
-- ==== Proof.Bits.lean ====
import proofs.«408017_j26749056319643_3_alg».proof.Proof.Unpool

/-!
Words as numbers: what membership in a window says about an index's value, and the kernel's packed parities as the two
binary digits of that value at places 14 and 7.
-/

namespace Cert.Unpool

open Idealize.ShloMosaic

/-- An arithmetic shift of a non-negative word by a literal amount below the width is the quotient by the power of two. -/
theorem toNat_shrsi {u : ArithUnit} {x : BitVec 32} (hx : x.msb = false) (n : Nat) (hn : n < 32) :
    (IntOp.shrsi u x (BitVec.ofNat 32 n)).toNat = x.toNat / 2 ^ n := by
  have hn' : (BitVec.ofNat 32 n).toNat = n := by simp; omega
  unfold IntOp.shrsi
  rw [if_pos (by rw [hn']; exact hn), BitVec.sshiftRight_eq', hn', BitVec.sshiftRight_eq_of_msb_false hx,
    BitVec.toNat_ushiftRight, Nat.shiftRight_eq_div_pow]

/-- and is again non-negative. -/
theorem msb_shrsi {u : ArithUnit} {x : BitVec 32} (hx : x.msb = false) (n : Nat) (hn : n < 32) :
    (IntOp.shrsi u x (BitVec.ofNat 32 n)).msb = false := by
  have hn' : (BitVec.ofNat 32 n).toNat = n := by simp; omega
  unfold IntOp.shrsi
  rw [if_pos (by rw [hn']; exact hn), BitVec.sshiftRight_eq', hn', BitVec.msb_sshiftRight, hx]

theorem toNat_andi_127 (x : BitVec 32) : (IntOp.andi x 127#32).toNat = x.toNat % 128 := by
  unfold IntOp.andi
  rw [BitVec.toNat_and]
  exact Nat.and_two_pow_sub_one_eq_mod x.toNat 7

theorem toNat_andi_63 (x : BitVec 32) : (IntOp.andi x 63#32).toNat = x.toNat % 64 := by
  unfold IntOp.andi
  rw [BitVec.toNat_and]
  exact Nat.and_two_pow_sub_one_eq_mod x.toNat 6

theorem toNat_andi_1 (x : BitVec 32) : (IntOp.andi x 1#32).toNat = x.toNat % 2 := by
  unfold IntOp.andi
  rw [BitVec.toNat_and]
  exact Nat.and_two_pow_sub_one_eq_mod x.toNat 1

/-- A word whose arithmetic shift by 15 is a small natural is non-negative: the shift keeps the sign bit. -/
theorem InWindow.msb {x : BitVec 32} {h w c : Nat} (hh : h < 64) (H : InWindow x h w c) : x.msb = false := by
  have e := H.1
  unfold IntOp.shrsi at e
  rw [if_pos (by decide), BitVec.sshiftRight_eq'] at e
  have := congrArg BitVec.msb e
  rw [BitVec.msb_sshiftRight] at this
  rw [this, BitVec.msb_eq_decide]
  simp
  omega

/-- The index's value: row `2h + dy`, column `2w + dx`, channel `c`, flattened over (128, 128, 128), where `dy` and `dx`
    are its binary digits at places 14 and 7. -/
theorem InWindow.toNat_eq {x : BitVec 32} {h w c : Nat} (hh : h < 64) (hw : w < 64) (hc : c < 128)
    (H : InWindow x h w c) :
    x.toNat = ((2 * h + x.toNat / 16384 % 2) * 128 + (2 * w + x.toNat / 128 % 2)) * 128 + c := by
  have hx := H.msb hh
  have e1 := congrArg BitVec.toNat H.1
  have e2 := congrArg BitVec.toNat H.2.1
  have e3 := congrArg BitVec.toNat H.2.2
  rw [show (15#32 : BitVec 32) = BitVec.ofNat 32 15 from rfl, toNat_shrsi hx 15 (by decide)] at e1
  rw [toNat_andi_63, show (8#32 : BitVec 32) = BitVec.ofNat 32 8 from rfl, toNat_shrsi hx 8 (by decide)] at e2
  rw [toNat_andi_127] at e3
  simp only [BitVec.toNat_ofNat] at e1 e2 e3
  omega

/-- The kernel's packed parities of a non-negative word are its binary digits at places 14 and 7. -/
theorem corner_eq {x : BitVec 32} (hx : x.msb = false) :
    corner x = BitVec.ofNat 32 (2 * (x.toNat / 16384 % 2) + x.toNat / 128 % 2) := by
  have h7 := msb_shrsi (u := .vector) hx 7 (by decide)
  have a : (IntOp.andi (IntOp.shrsi .vector x 7#32) 1#32).toNat = x.toNat / 128 % 2 := by
    rw [toNat_andi_1, show (7#32 : BitVec 32) = BitVec.ofNat 32 7 from rfl, toNat_shrsi hx 7 (by decide)]
    omega
  have b : (IntOp.andi (IntOp.shrsi .vector (IntOp.shrsi .vector x 7#32) 7#32) 1#32).toNat = x.toNat / 16384 % 2 := by
    rw [toNat_andi_1, show (7#32 : BitVec 32) = BitVec.ofNat 32 7 from rfl, toNat_shrsi h7 7 (by decide),
      toNat_shrsi hx 7 (by decide)]
    omega
  unfold corner
  generalize IntOp.andi (IntOp.shrsi .vector x 7#32) 1#32 = p at a
  generalize IntOp.andi (IntOp.shrsi .vector (IntOp.shrsi .vector x 7#32) 7#32) 1#32 = q at b
  have hp : p = 0#32 ∨ p = 1#32 := by
    rcases Nat.mod_two_eq_zero_or_one (x.toNat / 128) with e | e
    · left; apply BitVec.eq_of_toNat_eq; rw [a, e]; rfl
    · right; apply BitVec.eq_of_toNat_eq; rw [a, e]; rfl
  have hq : q = 0#32 ∨ q = 1#32 := by
    rcases Nat.mod_two_eq_zero_or_one (x.toNat / 16384) with e | e
    · left; apply BitVec.eq_of_toNat_eq; rw [b, e]; rfl
    · right; apply BitVec.eq_of_toNat_eq; rw [b, e]; rfl
  rw [← a, ← b]
  rcases hp with rfl | rfl <;> rcases hq with rfl | rfl <;> decide

end Cert.Unpool
-- ==== Proof.RefPieces.lean ====
import proofs.«408017_j26749056319643_3_alg».proof.Proof.RefRead
import proofs.«408017_j26749056319643_3_alg».proof.Proof.Unpool
import proofs.«408017_j26749056319643_3_alg».proof.Proof.Bits
import Idealize.ShloMosaic.Lib.Pipeline.Value
import Idealize.ShloMosaic.Lib.ValueIdx
import Idealize.ShloMosaic.Lib.Affine

/-!
The reference's stages, read at an index.

The reference repeats the pooled array twice along rows and along columns, and multiplies it by a 0/1 mask obtained by
scattering ones at the argmax indices. Here: the repeated array at an output position is the pooled value of the window
holding that position, and the scatter's index pair for update (b, k) is (b, the k-th index word of batch b), the wrap of
negative components being idle because both components are non-negative.
-/

noncomputable section

namespace Cert.Unpool

open Idealize.ShloMosaic Idealize.ShloMosaic.ValueIdx Cert.ReferenceIdeal Cert.ReferenceIdeal.ReadP

/-- A select on "x < 0" (signed) between a wrapped word and x itself is x when the sign bit of x is clear. -/
private theorem select_slt_zero_of_msb {x y : BitVec 32} (hx : x.msb = false) :
    Scalar.select (IntOp.cmpi .slt x 0#32) y x = x := by
  unfold Scalar.select
  rw [if_neg]
  intro h
  have h' := IntOp.cmpi_slt.1 h
  rw [BitVec.toInt_eq_toNat_of_msb hx, show (0#32 : BitVec 32).toInt = 0 from by decide] at h'
  omega

/-- The word of a natural below 2^31 has its sign bit clear. -/
private theorem msb_ofNat_small {n : Nat} (hn : n < 2 ^ 31) : (BitVec.ofNat 32 n).msb = false := by
  rw [BitVec.msb_eq_decide, BitVec.toNat_ofNat]
  simp
  omega

/-- A multiple of 16384 plus less than 16384, divided by 16384. -/
private theorem mul_add_div_of_lt (A r : Nat) (h : r < 16384) : (A * 16384 + r) / 16384 = A := by omega

/-- Undoing the two repeats: (b, y, x, c) came from (b, y / 2, x / 2, c). -/
private theorem upsample_index (i : SOut.Idx) :
    idx_main_v23 (idx_main_v24 (idx_main_v25 (idx_main_v26 i))) = src i := by
  have h0 : (i 0).val < 16 := (i 0).isLt
  have h1 : (i 1).val < 128 := (i 1).isLt
  have h2 : (i 2).val < 128 := (i 2).isLt
  have h3 : (i 3).val < 128 := (i 3).isLt
  have e0 : ((((i 0).val * 128 + (i 1).val) * 128 + (i 2).val) * 128 + (i 3).val) / 2097152 = (i 0).val := by omega
  have e1 : ((((i 0).val * 128 + (i 1).val) * 128 + (i 2).val) * 128 + (i 3).val) / 16384 % 128 = (i 1).val := by omega
  have e2 : ((((i 0).val * 128 + (i 1).val) * 128 + (i 2).val) * 128 + (i 3).val) / 256 % 64 = (i 2).val / 2 := by omega
  have e4 : ((((i 0).val * 128 + (i 1).val) * 128 + (i 2).val) * 128 + (i 3).val) % 128 = (i 3).val := by omega
  funext a
  exact match a with
  | ⟨0, _⟩ => by
    apply Fin.ext
    show ((((((((i 0).val * 128 + (i 1).val) * 128 + (i 2).val) * 128 + (i 3).val) / 2097152) * 128 + (((((i 0).val * 128 + (i 1).val) * 128 + (i 2).val) * 128 + (i 3).val) / 16384 % 128)) * 64 + (((((i 0).val * 128 + (i 1).val) * 128 + (i 2).val) * 128 + (i 3).val) / 256 % 64)) * 128 + (((((i 0).val * 128 + (i 1).val) * 128 + (i 2).val) * 128 + (i 3).val) % 128)) / 1048576 = (i 0).val
    rw [e0, e1, e2, e4]
    omega
  | ⟨1, _⟩ => by
    apply Fin.ext
    show ((((((((i 0).val * 128 + (i 1).val) * 128 + (i 2).val) * 128 + (i 3).val) / 2097152) * 128 + (((((i 0).val * 128 + (i 1).val) * 128 + (i 2).val) * 128 + (i 3).val) / 16384 % 128)) * 64 + (((((i 0).val * 128 + (i 1).val) * 128 + (i 2).val) * 128 + (i 3).val) / 256 % 64)) * 128 + (((((i 0).val * 128 + (i 1).val) * 128 + (i 2).val) * 128 + (i 3).val) % 128)) / 16384 % 64 = (i 1).val / 2
    rw [e0, e1, e2, e4]
    have hR : (i 1).val % 2 * 8192 + (i 2).val / 2 * 128 + (i 3).val < 16384 := by omega
    have hM : (((i 0).val * 128 + (i 1).val) * 64 + (i 2).val / 2) * 128 + (i 3).val
        = ((i 0).val * 64 + (i 1).val / 2) * 16384 + ((i 1).val % 2 * 8192 + (i 2).val / 2 * 128 + (i 3).val) := by omega
    rw [hM, mul_add_div_of_lt _ _ hR]
    omega
  | ⟨2, _⟩ => by
    apply Fin.ext
    show ((((((((i 0).val * 128 + (i 1).val) * 128 + (i 2).val) * 128 + (i 3).val) / 2097152) * 128 + (((((i 0).val * 128 + (i 1).val) * 128 + (i 2).val) * 128 + (i 3).val) / 16384 % 128)) * 64 + (((((i 0).val * 128 + (i 1).val) * 128 + (i 2).val) * 128 + (i 3).val) / 256 % 64)) * 128 + (((((i 0).val * 128 + (i 1).val) * 128 + (i 2).val) * 128 + (i 3).val) % 128)) / 128 % 64 = (i 2).val / 2
    rw [e0, e1, e2, e4]
    omega
  | ⟨3, _⟩ => by
    apply Fin.ext
    show ((((((((i 0).val * 128 + (i 1).val) * 128 + (i 2).val) * 128 + (i 3).val) / 2097152) * 128 + (((((i 0).val * 128 + (i 1).val) * 128 + (i 2).val) * 128 + (i 3).val) / 16384 % 128)) * 64 + (((((i 0).val * 128 + (i 1).val) * 128 + (i 2).val) * 128 + (i 3).val) / 256 % 64)) * 128 + (((((i 0).val * 128 + (i 1).val) * 128 + (i 2).val) * 128 + (i 3).val) % 128)) % 128 = (i 3).val
    rw [e0, e1, e2, e4]
    omega

/-- Update k of batch b, as a position of the pooled array. -/
private theorem flat_index (b : Fin 16) (k : Fin 524288) :
    idx_main_v0 (ix2 b k) = ix4 b ⟨k.val / 8192, by have := k.isLt; omega⟩ ⟨k.val / 128 % 64, by omega⟩ ⟨k.val % 128, by omega⟩ := by
  have hb : b.val < 16 := b.isLt
  have hk : k.val < 524288 := k.isLt
  funext a
  exact match a with
  | ⟨0, _⟩ => by
    apply Fin.ext
    show (b.val * 524288 + k.val) / 524288 = b.val
    omega
  | ⟨1, _⟩ => by
    apply Fin.ext
    show (b.val * 524288 + k.val) / 8192 % 64 = k.val / 8192
    omega
  | ⟨2, _⟩ => by
    apply Fin.ext
    show (b.val * 524288 + k.val) / 128 % 64 = k.val / 128 % 64
    omega
  | ⟨3, _⟩ => by
    apply Fin.ext
    show (b.val * 524288 + k.val) % 128 = k.val % 128
    omega

variable [Cert.ReferenceIdeal.Facts]

/-- The pooled array repeated twice along rows and columns reads, at an output position, the pooled value of its window. -/
theorem upsampled_apply (P : FVec Ideal SIn .f32) (i : SOut.Idx) : val_main_v26 (F := Ideal) P i = P (src i) := by
  rw [val_main_v26_apply, val_main_v25_apply, val_main_v24_apply, val_main_v23_apply, upsample_index]

/-- Component 0 of the scatter index of update (b, k) is the batch number b. -/
theorem scatter_index_batch (I : IVec SIn 32) (b : Fin 16) (k : Fin 524288) :
    val_main_v18 (F := Ideal) I (ix3 b k (0 : Fin 2)) = BitVec.ofNat 32 b.val := by
  unfold val_main_v18
  have key := concatenate_pair_apply_left (t := S16x524288x2) (s₁ := S16x524288x1) (s₂ := S16x524288x1) 2
    (val_main_v16 (F := Ideal)) (val_main_v17 (F := Ideal) I) Gen.concatenates_S16x524288x1_S16x524288x1_S16x524288x2_d2
    (ix3 b k (0 : Fin 2)) rfl (ix3 b k (0 : Fin 1))
    (fun d => match d with | ⟨0, _⟩ => rfl | ⟨1, _⟩ => rfl | ⟨2, _⟩ => rfl)
  refine key.trans ?_
  rw [val_main_v16_apply, val_main_v15_apply, val_main_v9_apply, val_main_v6_apply, val_main_v4_apply,
    val_main_v5_apply, val_main_c_apply, val_main_v3_apply]
  exact select_slt_zero_of_msb (x := BitVec.ofNat 32 b.val) (msb_ofNat_small (by have := b.isLt; omega))

/-- Component 1 is the index word itself: update k of batch b is pooled position (k / 8192, k / 128 % 64, k % 128), and a word in its window is non-negative, so the wrap of negative indices leaves it alone. -/
theorem scatter_index_flat (I : IVec SIn 32) (hI : ∀ j : SIn.Idx, InWindow (I j) (j 1).val (j 2).val (j 3).val) (b : Fin 16) (k : Fin 524288) :
    val_main_v18 (F := Ideal) I (ix3 b k (1 : Fin 2)) = I (ix4 b ⟨k.val / 8192, by have := k.isLt; omega⟩ ⟨k.val / 128 % 64, by omega⟩ ⟨k.val % 128, by omega⟩) := by
  have hk : k.val < 524288 := k.isLt
  unfold val_main_v18
  have key := concatenate_pair_apply_right (t := S16x524288x2) (s₁ := S16x524288x1) (s₂ := S16x524288x1) 2
    (val_main_v16 (F := Ideal)) (val_main_v17 (F := Ideal) I) Gen.concatenates_S16x524288x1_S16x524288x1_S16x524288x2_d2
    (ix3 b k (1 : Fin 2)) rfl rfl (ix3 b k (0 : Fin 1))
    (fun d => match d with
      | ⟨0, _⟩ => fun _ => rfl
      | ⟨1, _⟩ => fun _ => rfl
      | ⟨2, _⟩ => fun hd => absurd rfl hd) rfl
  refine key.trans ?_
  have e17 : idx_main_v17 (ix3 b k (0 : Fin 1)) = ix2 b k := by
    funext d
    exact match d with
    | ⟨0, _⟩ => rfl
    | ⟨1, _⟩ => rfl
  rw [val_main_v17_apply, val_main_v14_apply, val_main_v11_apply, val_main_v10_apply, val_main_c_2_apply,
    val_main_v0_apply, e17, flat_index]
  exact select_slt_zero_of_msb ((hI _).msb (by show k.val / 8192 < 64; omega))

end Cert.Unpool

end
-- ==== Proof.Hit.lean ====
import proofs.«408017_j26749056319643_3_alg».proof.Proof.RefRead
import proofs.«408017_j26749056319643_3_alg».proof.Proof.Scatter
import proofs.«408017_j26749056319643_3_alg».proof.Proof.Bits
import proofs.«408017_j26749056319643_3_alg».proof.Proof.Unpool
import proofs.«408017_j26749056319643_3_alg».proof.Proof.RefPieces
import Idealize.ShloMosaic.Lib.StableHlo.Predicate

/-!
Which output positions a scattered one lands on.

The reference scatters a one for each pooled position: update (b, k) carries the argmax word of pooled position
(b, k / 8192, k / 128 % 64, k % 128) and lands on element (b, x) of the [16, 2097152] operand, x the word's value. Inside
its window the word is non-negative and its value is ((2h + dy) 128 + (2w + dx)) 128 + c, with (h, w, c) the pooled
position's last three coordinates and dy, dx the word's binary digits at places 14 and 7. Output position (i0, i1, i2, i3)
is element (i0, (i1 128 + i2) 128 + i3), so it is hit exactly by the update of its own pooled position (i0, i1 / 2, i2 / 2,
i3), and exactly when that word's two digits are the parities of i1 and i2: when the packed parities of the word are
2 (i1 % 2) + i2 % 2.
-/

noncomputable section

namespace Cert.Unpool

open Idealize.ShloMosaic Idealize.ShloMosaic.ValueIdx Cert.ReferenceIdeal Cert.ReferenceIdeal.ReadP
open Idealize.ShloMosaic.StableHlo.Predicate (toInt_ofNat_small toInt_eq_toNat_of_lt)

variable [Cert.ReferenceIdeal.Facts]

/-- A word of the window of (h, w, c), read signed, is the flat position of (i1, i2, i3) over (128, 128, 128) exactly when
    (h, w, c) = (i1 / 2, i2 / 2, i3) and the word's packed parities are those of i1 and i2: the value is
    ((2h + dy) 128 + (2w + dx)) 128 + c, and the digits of a number in base 128 are unique. -/
theorem word_hits_iff (x : BitVec 32) (h w c : Nat) (hh : h < 64) (hw : w < 64) (hc : c < 128) (W : InWindow x h w c)
    (i1 i2 i3 : Nat) (h1 : i1 < 128) (h2 : i2 < 128) (h3 : i3 < 128) :
    x.toInt = (((i1 * 128 + i2) * 128 + i3 : Nat) : Int)
      ↔ (h = i1 / 2 ∧ w = i2 / 2 ∧ c = i3 ∧ corner x = BitVec.ofNat 32 (2 * (i1 % 2) + i2 % 2)) := by
  have hx := W.msb hh
  have e := W.toNat_eq hh hw hc
  have ti : x.toInt = (x.toNat : Int) := toInt_eq_toNat_of_lt (by omega)
  rw [ti, corner_eq hx, Int.natCast_inj]
  constructor
  · intro ee
    have d1 : x.toNat / 16384 % 2 = i1 % 2 := by omega
    have d2 : x.toNat / 128 % 2 = i2 % 2 := by omega
    refine ⟨by omega, by omega, by omega, ?_⟩
    rw [d1, d2]
  · rintro ⟨e1, e2, e3, ec⟩
    have ec' := congrArg BitVec.toNat ec
    simp only [BitVec.toNat_ofNat] at ec'
    omega

/-- The word update (b, k) carries is the argmax word of a pooled position with these coordinates. -/
theorem update_word (I : IVec SIn 32) (hI : ∀ j : SIn.Idx, InWindow (I j) (j 1).val (j 2).val (j 3).val) (b : Fin 16) (k : Fin 524288) :
    ∃ jj : SIn.Idx, val_main_v18 (F := Ideal) I (ix3 b k (1 : Fin 2)) = I jj ∧ (jj 0).val = b.val ∧ (jj 1).val = k.val / 8192
      ∧ (jj 2).val = k.val / 128 % 64 ∧ (jj 3).val = k.val % 128 :=
  ⟨_, scatter_index_flat I hI b k, rfl, rfl, rfl, rfl⟩

/-- Update (b, k) lands on output position i exactly when b is i's batch, the pooled position of k is i's and the word's
    packed parities are those of i's row and column. -/
theorem update_hits_iff (I : IVec SIn 32) (hI : ∀ j : SIn.Idx, InWindow (I j) (j 1).val (j 2).val (j 3).val) (b : Fin 16) (k : Fin 524288)
    (i : SOut.Idx) :
    sd.resultIdx? (ix2 b k) (val_main_v18 (F := Ideal) I) = some (idx_main_v22 i)
      ↔ (b.val = (i 0).val ∧ k.val = (i 1).val / 2 * 8192 + (i 2).val / 2 * 128 + (i 3).val
          ∧ corner (I (src i)) = BitVec.ofNat 32 (2 * ((i 1).val % 2) + (i 2).val % 2)) := by
  have h0 : (i 0).val < 16 := (i 0).isLt
  have h1 : (i 1).val < 128 := (i 1).isLt
  have h2 : (i 2).val < 128 := (i 2).isLt
  have h3 : (i 3).val < 128 := (i 3).isLt
  have hb : b.val < 16 := b.isLt
  have hk : k.val < 524288 := k.isLt
  have f0 : ((idx_main_v22 i) 0).val = (i 0).val := by
    show ((((i 0).val * 128 + (i 1).val) * 128 + (i 2).val) * 128 + (i 3).val) / 2097152 = _; omega
  have f1 : ((idx_main_v22 i) 1).val = ((i 1).val * 128 + (i 2).val) * 128 + (i 3).val := by
    show ((((i 0).val * 128 + (i 1).val) * 128 + (i 2).val) * 128 + (i 3).val) % 2097152 = _; omega
  obtain ⟨jj, ev, j0, j1, j2, j3⟩ := update_word I hI b k
  rw [sd_resultIdx?_iff]
  show (val_main_v18 (F := Ideal) I (ix3 b k (0 : Fin 2))).toInt = (((idx_main_v22 i) 0).val : Int)
      ∧ (val_main_v18 (F := Ideal) I (ix3 b k (1 : Fin 2))).toInt = (((idx_main_v22 i) 1).val : Int) ↔ _
  rw [scatter_index_batch, ev, f0, f1, toInt_ofNat_small _ (by omega), Int.natCast_inj,
    word_hits_iff (I jj) _ _ _ (by omega) (by omega) (by omega) (hI jj) _ _ _ h1 h2 h3]
  constructor
  · rintro ⟨eb, q1, q2, q3, qc⟩
    have ejj : jj = src i := by
      funext a
      match a with
      | ⟨0, _⟩ => exact Fin.ext (by show (jj 0).val = (i 0).val; omega)
      | ⟨1, _⟩ => exact Fin.ext (by show (jj 1).val = (i 1).val / 2; omega)
      | ⟨2, _⟩ => exact Fin.ext (by show (jj 2).val = (i 2).val / 2; omega)
      | ⟨3, _⟩ => exact Fin.ext (by show (jj 3).val = (i 3).val; omega)
    refine ⟨eb, by omega, ?_⟩
    rw [← ejj]; exact qc
  · rintro ⟨eb, ek, qc⟩
    have ejj : jj = src i := by
      funext a
      match a with
      | ⟨0, _⟩ => exact Fin.ext (by show (jj 0).val = (i 0).val; omega)
      | ⟨1, _⟩ => exact Fin.ext (by show (jj 1).val = (i 1).val / 2; omega)
      | ⟨2, _⟩ => exact Fin.ext (by show (jj 2).val = (i 2).val / 2; omega)
      | ⟨3, _⟩ => exact Fin.ext (by show (jj 3).val = (i 3).val; omega)
    refine ⟨eb, by omega, by omega, by omega, ?_⟩
    rw [ejj]; exact qc

/-- OUTPUT POSITION i IS HIT by some update exactly when the packed parities of the argmax word of its pooled position are
    those of its row and column. -/
theorem hit_iff (I : IVec SIn 32) (hI : ∀ j : SIn.Idx, InWindow (I j) (j 1).val (j 2).val (j 3).val) (i : SOut.Idx) :
    (∃ j : S16x524288.Idx, sd.resultIdx? j (val_main_v18 (F := Ideal) I) = some (idx_main_v22 i))
      ↔ corner (I (src i)) = BitVec.ofNat 32 (2 * ((i 1).val % 2) + (i 2).val % 2) := by
  have h0 : (i 0).val < 16 := (i 0).isLt
  have h1 : (i 1).val < 128 := (i 1).isLt
  have h2 : (i 2).val < 128 := (i 2).isLt
  have h3 : (i 3).val < 128 := (i 3).isLt
  constructor
  · rintro ⟨j, hj⟩
    rw [eq_ix2 j] at hj
    exact ((update_hits_iff I hI (j 0) (j 1) i).mp hj).2.2
  · intro hc
    exact ⟨ix2 (i 0) (⟨(i 1).val / 2 * 8192 + (i 2).val / 2 * 128 + (i 3).val, by omega⟩ : Fin 524288),
      (update_hits_iff I hI (i 0) _ i).mpr ⟨rfl, rfl, hc⟩⟩

end Cert.Unpool

end
-- ==== Proof.RefValue.lean ====
import proofs.«408017_j26749056319643_3_alg».proof.Proof.RefRead
import proofs.«408017_j26749056319643_3_alg».proof.Proof.Scatter
import proofs.«408017_j26749056319643_3_alg».proof.Proof.Bits
import proofs.«408017_j26749056319643_3_alg».proof.Proof.RefPieces
import proofs.«408017_j26749056319643_3_alg».proof.Proof.Hit
import Idealize.ShloMosaic.PureOps.Ideal.Laws
import Idealize.ShloMosaic.PureOps.IdealRules

/-!
The reference's result is the unpooled array.

The reference scatters a one for every index word onto a zero array [16, 2097152], asks where the sum is positive, and
multiplies that 0/1 switch into the pooled array repeated twice along rows and columns.  A sum of ones is the number of
updates landing on the element, so the switch is one exactly where some update lands; with every word in its own window
that is the position of each window whose parities are the word's two free bits.
-/

noncomputable section

namespace Cert.Unpool

open Idealize.ShloMosaic Idealize.ShloMosaic.ValueIdx Cert.ReferenceIdeal Cert.ReferenceIdeal.ReadP

variable [Cert.ReferenceIdeal.Facts]

/-- The switch at a flat position is set exactly when some update lands there: the scattered ones add up to the number
    of updates landing on the element, and a natural number is positive exactly when it counts something. -/
theorem switch_iff (I : IVec SIn 32) (i : S16x2097152.Idx) :
    val_main_v21 (F := Ideal) I i = 1#1 ↔ ∃ j : S16x524288.Idx, sd.resultIdx? j (val_main_v18 (F := Ideal) I) = some i := by
  rw [val_main_v21_apply]
  unfold val_main_v19 Host.scatterAdd
  rw [Ideal.hostScatterAdd_def]
  unfold Ideal.hostScatterAdd
  rw [val_main_v2_apply, val_main_cst_0_apply, val_main_v20_apply, val_main_cst_4_apply, Ideal.ofBits_def,
    Ideal.ofBits_zero_f32, zero_add, Ideal.cmpf_def]
  have h1 : ∀ j : S16x524288.Idx, val_main_v1 (F := Ideal) j = 1 := fun j => by
    rw [val_main_v1_apply, val_main_cst_apply, Ideal.ofBits_def]
    exact IdealRules.sign_bit.ideal_onePat .f32
  rw [Finset.sum_congr rfl (fun j _ => h1 j), Finset.sum_const, nsmul_one]
  simp only [Ideal.cmp, StableHlo.Predicate.ofBool_eq_one_iff, decide_eq_true_eq]
  rw [show (0 : EReal) = ((0 : ℕ) : EReal) from Nat.cast_zero.symm, EReal.natCast_lt_iff,
    Finset.card_pos, Finset.filter_nonempty_iff]
  exact ⟨fun ⟨j, _, hj⟩ => ⟨j, hj⟩, fun ⟨j, hj⟩ => ⟨j, Finset.mem_univ j, hj⟩⟩

/-- With every index word in its own window, the reference's result is the unpooled array: the repeated pooled value
    times a switch that is one at the position the word's two free bits name and zero at the window's other three. -/
theorem reference_eq (P : FVec Ideal SIn .f32) (I : IVec SIn 32)
    (hI : ∀ j : SIn.Idx, InWindow (I j) (j 1).val (j 2).val (j 3).val) :
    val_main_v28 (F := Ideal) P I = unpool P I := by
  funext i
  rw [val_main_v28_apply, Ideal.mulf_def, upsampled_apply, val_main_v27_apply, val_main_v22_apply]
  unfold unpool
  by_cases hc : corner (I (src i)) = BitVec.ofNat 32 (2 * ((i 1).val % 2) + (i 2).val % 2)
  · rw [if_pos hc, (switch_iff I (idx_main_v22 i)).2 ((hit_iff I hI i).2 hc)]
    show P (src i) * (((1#1 : BitVec 1).toNat : ℝ) : EReal) = P (src i)
    simp
  · rw [if_neg hc, eq_zero_of_ne_one (fun h => hc ((hit_iff I hI i).1 ((switch_iff I (idx_main_v22 i)).1 h))),
      Ideal.ofBits_zero_f32]
    show P (src i) * (((0#1 : BitVec 1).toNat : ℝ) : EReal) = 0
    simp

end Cert.Unpool

end
-- ==== Proof.lean ====
/-
  Max-unpooling by argmax indices: the kernel against a scatter-and-resize reference, over the extended reals.

  Both programs take `pooled` f32[16, 64, 64, 128] and `indices` i32[16, 64, 64, 128] and return f32[16, 128, 128, 128].
  The kernel reads, from each index word, the parities (dy, dx) of its position inside the 2x2 window as its bits 14
  and 7, and writes the pooled value at that position of the window and zero at the other three.  The reference
  scatters a one onto a zero array at every index, takes "positive" as a 0/1 switch, and multiplies the switch into the
  pooled array repeated twice along rows and columns.  The two agree when every index is an argmax position of its own
  window at its own channel, `((2h + dy) * 128 + (2w + dx)) * 128 + c`, which is the precondition beside the finiteness
  of `pooled`: then the ones land on distinct elements, one per window and channel, exactly where the kernel keeps the
  pooled value, and a product with the switch is the value or zero.  (Finiteness is not used: on the extended reals
  every number times zero is zero.)

  The three frames: the kernel's two are its generated frame; the reference's is its run with the result dropped.
  The idealization rewrote nothing, so `preserves` is `True`.  For `algebraic` both runs end at
  `Cert.Unpool.unpool` of the arguments: the kernel's by `Cert.KernelIdeal.Unpooled.run`, the reference's by its run's
  term read stage by stage (`Cert.Unpool.reference_eq`) under the windows the precondition gives
  (`Cert.Unpool.inWindow_of_pre`).
-/
import proofs.«408017_j26749056319643_3_alg».proof.Defs
import proofs.«408017_j26749056319643_3_alg».proof.Proof.Gen.Kernel
import proofs.«408017_j26749056319643_3_alg».proof.Proof.Gen.Kernel.Skeleton
import proofs.«408017_j26749056319643_3_alg».proof.Proof.Gen.Kernel.Launch
import proofs.«408017_j26749056319643_3_alg».proof.Proof.Gen.Kernel.Points
import proofs.«408017_j26749056319643_3_alg».proof.Proof.Gen.Kernel.Frame
import proofs.«408017_j26749056319643_3_alg».proof.Proof.Gen.KernelIdeal
import proofs.«408017_j26749056319643_3_alg».proof.Proof.Gen.KernelIdeal.Skeleton
import proofs.«408017_j26749056319643_3_alg».proof.Proof.Gen.KernelIdeal.Launch
import proofs.«408017_j26749056319643_3_alg».proof.Proof.Gen.KernelIdeal.Points
import proofs.«408017_j26749056319643_3_alg».proof.Proof.Gen.KernelIdeal.Frame
import proofs.«408017_j26749056319643_3_alg».proof.Proof.Gen.ReferenceIdeal
import proofs.«408017_j26749056319643_3_alg».proof.Proof.Gen.Pre_finite_inputs
import proofs.«408017_j26749056319643_3_alg».proof.Proof.Gen.KernelIdeal.Value
import proofs.«408017_j26749056319643_3_alg».proof.Proof.RefRun
import proofs.«408017_j26749056319643_3_alg».proof.Proof.RefRead
import proofs.«408017_j26749056319643_3_alg».proof.Proof.KernelValue
import proofs.«408017_j26749056319643_3_alg».proof.Proof.PreWindow
import proofs.«408017_j26749056319643_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end at the unpooled array of the arguments. -/
theorem algebraic : Cert.algebraic_KernelIdeal_ReferenceIdeal := by
  intro m ρ m' ρ' hpre hagree
  refine ⟨fun c => Cert.Unpool.unpool (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Unpooled.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, (hagree c).1, (hagree c).2]
  exact Cert.Unpool.reference_eq _ _ (Cert.Unpool.inWindow_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
